-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S1024x4096 : Shape := ⟨2, ![1024, 4096]⟩
abbrev S4096x512 : Shape := ⟨2, ![4096, 512]⟩
abbrev S1x512 : Shape := ⟨2, ![1, 512]⟩
abbrev S1024x512 : Shape := ⟨2, ![1024, 512]⟩

abbrev nBuf : Space → Nat
  | .hbm => 6
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x4096, .bf16⟩
  | .hbm, ⟨4, _⟩ => ⟨S1x4096, .f32⟩
  | .hbm, ⟨5, _⟩ => ⟨S8192x4096, .f32⟩
  | .local _ .vmem, ⟨0, _⟩ => ⟨S1024x4096, .f32⟩
  | .local _ .vmem, ⟨1, _⟩ => ⟨S1024x4096, .f32⟩
  | .local _ .vmem, ⟨2, _⟩ => ⟨S4096x512, .bf16⟩
  | .local _ .vmem, ⟨3, _⟩ => ⟨S4096x512, .bf16⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | .local _ .vmem, ⟨8, _⟩ => ⟨S1024x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bitsLt_bf16_f32 : FTy.bits .bf16 < FTy.bits .f32
  shapeCasts_S4096_S1x4096 : S4096.ShapeCasts S1x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  packedbf16_S1024x4096_S1024x4096_0_0 : (Rect.unit (s := S1024x4096) ![0, 0] S1024x4096.size inb_S1024x4096_S1024x4096_0_0).PackedRows (EltTy.packing .bf16)
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  dot_S1024x4096_S4096x512_S1024x512_1_0_0_1_n_n_wf : DotDims.WF S1024x4096 S4096x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S8192x4096.size a
  hwx0_0 : ∀ i : grid0.Coords, EltTy.bits .f32 = 32 ∨ (Rect.block (s := S8192x4096) S1024x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S4096x4096.size a
  hwx0_1 : ∀ i : grid0.Coords, EltTy.bits .bf16 = 32 ∨ (Rect.block (s := S4096x4096) S4096x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x4096.size a
  hwx0_2 : ∀ i : grid0.Coords, EltTy.bits .f32 = 32 ∨ (Rect.block (s := S1x4096) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S8192x4096.size a
  hwx0_3 : ∀ i : grid0.Coords, EltTy.bits .f32 = 32 ∨ (Rect.block (s := S8192x4096) S1024x512.size (cc0_transform_3 i) (hinb0_3 i)).WholeWords (EltTy.packing .f32)

variable [Facts₀]

def dot_S1024x4096_S4096x512_S1024x512_1_0_0_1_n_n : DotDims S1024x4096 S4096x512 S1024x512 where
  lhsContracting := [1]
  rhsContracting := [0]
  lhsNonContracting := [0]
  rhsNonContracting := [1]
  lhsBatch := []
  rhsBatch := []
  wf := dot_S1024x4096_S4096x512_S1024x512_1_0_0_1_n_n_wf

abbrev win0_0 : Pipeline.Window sig grid0 :=
  Pipeline.Window.ofSpec (Memref.whole main_arg0) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S4096x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v1) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S8192x4096, .f32⟩
  | .hbm, ⟨4, _⟩ => ⟨S1x4096, .f32⟩
  | .hbm, ⟨5, _⟩ => ⟨S8192x4096, .f32⟩
  | .hbm, ⟨6, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.Spec.lean ====
/-
  The dense layer as one function of its three argument arrays, on the extended reals.

  For x : [8192, 4096], W : [4096, 4096], b : [4096] the layer's result at row r and column c is
      (∑ k, x (r, k) · W (k, c)) + b c,
  the k-sum ranging over the 4096 input features. Both programs compute exactly this: a change of float format is
  the identity on the extended reals, a product accumulated into zero is the plain sum, and tiling the result into
  blocks changes which grid point writes an entry, not the entry.
-/
import Idealize.ShloMosaic.PureOps.Ideal
import Idealize.ShloMosaic.Lib.ValueIdx

noncomputable section

open scoped BigOperators
open Idealize.ShloMosaic Idealize.ShloMosaic.ValueIdx

namespace Cert.Linear

/-- `linear x W b (r, c) = (∑ k, x (r, k) · W (k, c)) + b c`. -/
def linear (x : FVec Ideal ⟨2, ![8192, 4096]⟩ .f32) (W : FVec Ideal ⟨2, ![4096, 4096]⟩ .f32)
    (b : FVec Ideal ⟨1, ![4096]⟩ .f32) : FVec Ideal ⟨2, ![8192, 4096]⟩ .f32 :=
  fun i => (∑ k : Fin 4096, x (ix2 (i 0) k) * W (ix2 k (i 1))) + b (ix1 (i 1))

/-- The layer at explicit coordinates. -/
theorem linear_apply (x : FVec Ideal ⟨2, ![8192, 4096]⟩ .f32) (W : FVec Ideal ⟨2, ![4096, 4096]⟩ .f32)
    (b : FVec Ideal ⟨1, ![4096]⟩ .f32) (r : Fin 8192) (c : Fin 4096) :
    linear x W b (ix2 r c) = (∑ k : Fin 4096, x (ix2 r k) * W (ix2 k c)) + b (ix1 c) := rfl

end Cert.Linear

end
-- ==== Proof.RefLinear.lean ====
/-
  The reference's result, read at an index, is the dense layer.

  The reference computes `dot_general(x, W)` contracting x's axis 1 with W's axis 0, broadcasts b to [1, 4096] and then
  to [8192, 4096] (column c of every row reads b c), and adds. Read at (r, c) on the extended reals that is
  (∑ k, x (r, k) · W (k, c)) + b c.
-/
import proofs.«174121_g35433480192895_cont_8to1_b_1472_3_alg».proof.Proof.Gen.ReferenceIdeal.Read
import proofs.«174121_g35433480192895_cont_8to1_b_1472_3_alg».proof.Proof.Spec

noncomputable section

open scoped BigOperators
open Idealize.ShloMosaic Idealize.ShloMosaic.ValueIdx

namespace Cert.ReferenceIdeal.RefValue

open Cert.ReferenceIdeal Cert.ReferenceIdeal.Read

/-- The last stage of the reference's run is `linear` of the three arguments. -/
theorem ref_eq_linear (x0 : (⟨S8192x4096, .f32⟩ : BufTy).Contents (Elt Ideal))
    (x1 : (⟨S4096x4096, .f32⟩ : BufTy).Contents (Elt Ideal)) (x2 : (⟨S4096, .f32⟩ : BufTy).Contents (Elt Ideal)) :
    val_main_v3 (F := Ideal) x0 x1 x2 = Cert.Linear.linear x0 x1 x2 := by
  funext i
  -- the product's left operand is read at (row of i, k), its right operand at (k, column of i)
  have el : ∀ k : Fin 4096, lidx_main_v0 i k = ix2 (i 0) k := fun k => funext fun a => Fin.ext (by
    match a with
    | ⟨0, _⟩ => rfl
    | ⟨1, _⟩ => rfl)
  have er : ∀ k : Fin 4096, ridx_main_v0 i k = ix2 k (i 1) := fun k => funext fun a => Fin.ext (by
    match a with
    | ⟨0, _⟩ => rfl
    | ⟨1, _⟩ => rfl)
  -- the two broadcasts read b at the column of i
  have eb : idx_main_v1 (idx_main_v2 i) = ix1 (i 1) := funext fun a => Fin.ext (by
    match a with
    | ⟨0, _⟩ => rfl)
  rw [val_main_v3_apply, val_main_v0_apply, val_main_v2_apply, val_main_v1_apply]
  simp only [el, er, eb]
  rfl

end Cert.ReferenceIdeal.RefValue

end
-- ==== Proof.Pieces.lean ====
/-
  What each control case of the body leaves behind, as a value of what it loaded.

  At the first point of a row strip (inner grid coordinate 0) the body casts the strip of x into the scratch and then
  multiplies what it just stored; at the other points it multiplies what the scratch already held. Either way the
  output block is one whole store of the product-plus-bias of (scratch, W block, bias block), and the scratch ends
  either at the cast strip (first point) or untouched.
-/
import proofs.«174121_g35433480192895_cont_8to1_b_1472_3_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- First point of a strip: the scratch ends holding the cast of the x block. -/
theorem scratch_first (c : Dev nD) (i : grid0.Coords) (arg2 : Memref sig .tc .vmem S1024x4096 .f32) (harg2 : arg2.IsWhole) (arg3 : Memref sig .tc .vmem S4096x512 .bf16) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x4096 .bf16) (harg6 : arg6.IsWhole) (hc0 : cond0_0 i)
    (x0 : Vec F S1024x4096 .f32) (x1 : Vec F S4096x512 .bf16) (x2 : Vec F S1x512 .f32) :
    sout0_A_0 c i arg2 harg2 arg3 harg3 arg4 harg4 arg5 harg5 arg6 harg6 hc0 x0 x1 x2 = k0_pay1 x0 := by
  unfold sout0_A_0
  rw [View.read_writes_eq_canon _ _ _ (scover0_A_0 c i arg2 harg2 arg3 harg3 arg4 harg4 arg5 harg5 arg6 harg6 hc0 x0 x1 x2)]
  unfold kernelRun0_A
  dsimp only
  sl_unfold_words
  rw [View.canon_unit_zero hz]
  simp only [View.readAt_eq_ld, harg2.read_unread, View.ld_unit_zero (S := S1024x4096) hz]

/-- First point of a strip: the output block is the product-plus-bias over the strip just cast (the product reads the
    scratch back after the store that filled it). -/
theorem out_first (c : Dev nD) (i : grid0.Coords) (arg2 : Memref sig .tc .vmem S1024x4096 .f32) (harg2 : arg2.IsWhole) (arg3 : Memref sig .tc .vmem S4096x512 .bf16) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x4096 .bf16) (harg6 : arg6.IsWhole) (hc0 : cond0_0 i)
    (x0 : Vec F S1024x4096 .f32) (x1 : Vec F S4096x512 .bf16) (x2 : Vec F S1x512 .f32) :
    out0_A_3 c i arg2 harg2 arg3 harg3 arg4 harg4 arg5 harg5 arg6 harg6 hc0 x0 x1 x2 = k0_pay2 (k0_pay1 x0) x1 x2 := by
  unfold out0_A_3
  rw [View.read_writes_eq_canon _ _ _ (cover0_A_3 c i arg2 harg2 arg3 harg3 arg4 harg4 arg5 harg5 arg6 harg6 hc0 x0 x1 x2)]
  unfold kernelRun0_A
  dsimp only
  sl_unfold_words
  rw [View.canon_unit_zero hz]
  simp only [View.readAt_eq_ld, harg2.read_unread, harg3.read_unread, harg4.read_unread,
    View.ld_unit_zero (S := S1024x4096) hz, View.ld_unit_zero (S := S4096x512) hz, View.ld_unit_zero (S := S1x512) hz,
    View.readCov_unit_zero (S := S1024x4096) _ hz]

/-- Any later point of a strip: the output block is the product-plus-bias over what the scratch held on entry. -/
theorem out_later (c : Dev nD) (i : grid0.Coords) (arg2 : Memref sig .tc .vmem S1024x4096 .f32) (harg2 : arg2.IsWhole) (arg3 : Memref sig .tc .vmem S4096x512 .bf16) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x4096 .bf16) (harg6 : arg6.IsWhole) (hc0 : ¬cond0_0 i)
    (x0 : Vec F S1024x4096 .f32) (x1 : Vec F S4096x512 .bf16) (x2 : Vec F S1x512 .f32) (xs0 : Vec F S1024x4096 .bf16) :
    out0_B_3 c i arg2 harg2 arg3 harg3 arg4 harg4 arg5 harg5 arg6 harg6 hc0 x0 x1 x2 xs0 = k0_pay2 xs0 x1 x2 := by
  unfold out0_B_3
  rw [View.read_writes_eq_canon _ _ _ (cover0_B_3 c i arg2 harg2 arg3 harg3 arg4 harg4 arg5 harg5 arg6 harg6 hc0 x0 x1 x2 xs0)]
  unfold kernelRun0_B
  dsimp only
  rw [View.canon_unit_zero hz]
  simp only [View.readAt_eq_ld, harg6.read_unread, harg3.read_unread, harg4.read_unread,
    View.ld_unit_zero (S := S1024x4096) hz, View.ld_unit_zero (S := S4096x512) hz, View.ld_unit_zero (S := S1x512) hz]

end Cert.KernelIdeal.Pieces

end
-- ==== Proof.LibPlainMatmul.lean ====
/-
  A plain matrix product read at an index, at the ideal values.

  For dimension numbers `d` over shapes [M, K] × [K, N] → [M, N] that contract the left operand's axis 1 with the right
  operand's axis 0 and keep the left rows and the right columns — stated here as the four facts about the record's index
  maps that say so, so that the lemma serves any record, whatever its generated name — the product accumulated into the
  zero splat, read at `(p, o)`, is `∑ k, A (p, k) · B (k, o)`: the library's sum over the record's contraction index set,
  re-indexed by that set's one coordinate.
-/
import Idealize.ShloMosaic.PureOps.Ideal.Laws
import Idealize.ShloMosaic.Lib.ValueIdx

noncomputable section

open scoped BigOperators
open Idealize.ShloMosaic Idealize.ShloMosaic.ValueIdx

namespace Cert.LibPlainMatmul

/-- `FloatOps.matmul d prec A B 0 (p, o) = ∑ k : Fin K, A (p, k) * B (k, o)` for a record `d` with one contracted axis of
    extent `K` whose left index at `(i, q)` is `(i 0, q)` and whose right index is `(q, i 1)` (`hl0`, `hl1`, `hr0`, `hr1`:
    for a generated record the first and last are a `dif_neg` / `dif_pos` on its literal axis lists, the middle two are
    `DotDims.lhsIdx_val_of_single` / `rhsIdx_val_of_single`). -/
theorem matmul_zero_apply {M K N : ℕ} {φ₁ φ₂ : FTy}
    (d : DotDims ⟨2, ![M, K]⟩ ⟨2, ![K, N]⟩ ⟨2, ![M, N]⟩) (prec : Option ContractPrecision)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (A : FVec Ideal ⟨2, ![M, K]⟩ φ₁) (B : FVec Ideal ⟨2, ![K, N]⟩ φ₂) (p : Fin M) (o : Fin N) :
    FloatOps.matmul d prec A B (constant (F := Ideal) ⟨2, ![M, N]⟩ .f32 0x00000000#32) (ix2 p o)
      = ∑ k : Fin K, A (ix2 p k) * B (ix2 k o) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p o) ((contrEquiv1 d K hr hs).symm k) = ix2 p k := funext fun a => Fin.ext (by
    match a with
    | ⟨0, _⟩ => exact hl0 _ _
    | ⟨1, _⟩ => exact (hl1 _ _).trans hk)
  have er : d.rhsIdx (ix2 p o) ((contrEquiv1 d K hr hs).symm k) = ix2 k o := funext fun a => Fin.ext (by
    match a with
    | ⟨0, _⟩ => exact (hr0 _ _).trans hk
    | ⟨1, _⟩ => exact hr1 _ _)
  rw [el, er]

end Cert.LibPlainMatmul

end
-- ==== Proof.Body.lean ====
/-
  The kernel body's two stored values, read at an index on the extended reals.

  The first store casts the f32 block of x to bf16: on the extended reals a change of float format is the identity, so
  the scratch receives the block of x itself. The second store is the product of the scratch (rows of x) with a
  [4096, 512] block of W accumulated into the zero splat, plus the [1, 512] bias block broadcast down the 1024 rows:
  at (p, q) it is (∑ k, xs (p, k) · w (k, q)) + bias (0, q).
-/
import proofs.«174121_g35433480192895_cont_8to1_b_1472_3_alg».proof.Proof.Gen.KernelIdeal.Skeleton
import proofs.«174121_g35433480192895_cont_8to1_b_1472_3_alg».proof.Proof.LibPlainMatmul
import Idealize.ShloMosaic.Lib.Pipeline.Value
import Idealize.ShloMosaic.Lib.ValueIdx
import Idealize.ShloMosaic.PureOps.Ideal.Laws

noncomputable section

open scoped BigOperators
open Idealize.ShloMosaic Idealize.ShloMosaic.ValueIdx

namespace Cert.KernelIdeal.Body

open Cert.KernelIdeal Cert.KernelIdeal.Gen

/-- The cast to bf16 followed by the trivial reshape leaves every entry as it was. -/
theorem cast_apply (v12 : Vec Ideal S1024x4096 .f32) (y : S1024x4096.Idx) :
    k0_pay1 (F := Ideal) v12 y = v12 y := by
  unfold k0_pay1
  rw [shapeCast_self]
  rfl

/-! The product's record contracts the left operand's axis 1 with the right operand's axis 0 and keeps the left rows
    and the right columns: the four facts about its index maps that say so. -/

theorem lhs_axis0 (i : S1024x512.Idx) (q : dot_S1024x4096_S4096x512_S1024x512_1_0_0_1_n_n.contr.Idx) :
    (dot_S1024x4096_S4096x512_S1024x512_1_0_0_1_n_n.lhsIdx i q 0).val = (i 0).val := by
  unfold DotDims.lhsIdx
  rw [dif_neg (show ¬(0 : Fin S1024x4096.rank) ∈ dot_S1024x4096_S4096x512_S1024x512_1_0_0_1_n_n.lhsBatch by decide), dif_pos (show (0 : Fin S1024x4096.rank) ∈ dot_S1024x4096_S4096x512_S1024x512_1_0_0_1_n_n.lhsNonContracting by decide)]
  rfl

theorem lhs_axis1 (i : S1024x512.Idx) (q : dot_S1024x4096_S4096x512_S1024x512_1_0_0_1_n_n.contr.Idx) :
    (dot_S1024x4096_S4096x512_S1024x512_1_0_0_1_n_n.lhsIdx i q 1).val = (q ⟨0, by decide⟩).val :=
  dot_S1024x4096_S4096x512_S1024x512_1_0_0_1_n_n.lhsIdx_val_of_single rfl i q

theorem rhs_axis0 (i : S1024x512.Idx) (q : dot_S1024x4096_S4096x512_S1024x512_1_0_0_1_n_n.contr.Idx) :
    (dot_S1024x4096_S4096x512_S1024x512_1_0_0_1_n_n.rhsIdx i q 0).val = (q ⟨0, by decide⟩).val :=
  dot_S1024x4096_S4096x512_S1024x512_1_0_0_1_n_n.rhsIdx_val_of_single rfl i q

theorem rhs_axis1 (i : S1024x512.Idx) (q : dot_S1024x4096_S4096x512_S1024x512_1_0_0_1_n_n.contr.Idx) :
    (dot_S1024x4096_S4096x512_S1024x512_1_0_0_1_n_n.rhsIdx i q 1).val = (i 1).val := by
  unfold DotDims.rhsIdx
  rw [dif_neg (show ¬(1 : Fin S4096x512.rank) ∈ dot_S1024x4096_S4096x512_S1024x512_1_0_0_1_n_n.rhsBatch by decide), dif_pos (show (1 : Fin S4096x512.rank) ∈ dot_S1024x4096_S4096x512_S1024x512_1_0_0_1_n_n.rhsNonContracting by decide)]
  rfl

/-- The bias block broadcast down the rows, read at (p, q), is the bias at (0, q). -/
theorem bias_apply (v7 : Vec Ideal S1x512 .f32) (p : Fin 1024) (q : Fin 512) :
    broadcastTo S1024x512 v7 broadcasts_S1x512_S1024x512 (ix2 p q) = v7 (ix2 0 q) :=
  broadcastTo_apply v7 broadcasts_S1x512_S1024x512 (ix2 p q) (ix2 0 q) (fun a => by
    match a with
    | ⟨0, _⟩ => show 0 = if (1 : Nat) = 1 then 0 else p.val; rw [if_pos rfl]
    | ⟨1, _⟩ => show q.val = if (512 : Nat) = 1 then 0 else q.val; rw [if_neg (by decide)])

/-- The stored output block at (p, q): the 4096-term product of row p of the scratch with column q of the W block,
    plus the bias of column q. -/
theorem out_apply (v3 : Vec Ideal S1024x4096 .bf16) (v4 : Vec Ideal S4096x512 .bf16) (v7 : Vec Ideal S1x512 .f32)
    (p : Fin 1024) (q : Fin 512) :
    k0_pay2 (F := Ideal) v3 v4 v7 (ix2 p q) = (∑ k : Fin 4096, v3 (ix2 p k) * v4 (ix2 k q)) + v7 (ix2 0 q) := by
  unfold k0_pay2
  rw [shapeCast_self, shapeCast_self]
  show FloatOps.matmul dot_S1024x4096_S4096x512_S1024x512_1_0_0_1_n_n none v3 v4 (constant (F := Ideal) S1024x512 .f32 0x00000000#32) (ix2 p q)
      + broadcastTo S1024x512 v7 broadcasts_S1x512_S1024x512 (ix2 p q) = _
  rw [Cert.LibPlainMatmul.matmul_zero_apply dot_S1024x4096_S4096x512_S1024x512_1_0_0_1_n_n none rfl rfl lhs_axis0 lhs_axis1 rhs_axis0 rhs_axis1 v3 v4 p q,
    bias_apply]

end Cert.KernelIdeal.Body

end
-- ==== Proof.Arrays.lean ====
/-
  The arrays the region finds, and its windows' blocks read at coordinates.

  The grid is 8 × 8, point t having row-strip t / 8 and column-block t % 8. Window 0 (x) shows rows
  1024·(t / 8) … of x, all 4096 columns; window 1 (the cast W) shows all 4096 rows and columns 512·(t % 8) … of W;
  window 2 (b as a [1, 4096] row) shows columns 512·(t % 8) …; window 3 (the result) is the [1024, 512] block at
  (t / 8, t % 8). Before the region the host casts W to bf16 — the identity on the extended reals — and reshapes b
  to a row, so the cast array is W and the row's entry (0, q) is b q.
-/
import proofs.«174121_g35433480192895_cont_8to1_b_1472_3_alg».proof.Proof.Gen.KernelIdeal.Frame
import Idealize.ShloMosaic.Lib.Pipeline.Value
import Idealize.ShloMosaic.Lib.ValueIdx
import Idealize.ShloMosaic.Lib.StableHlo.Run

noncomputable section

open Idealize.ShloMosaic Idealize.ShloMosaic.TcCoe Idealize.SL.Sem Idealize.ShloMosaic.ValueIdx

namespace Cert.KernelIdeal.Arrays

open Cert.KernelIdeal Cert.KernelIdeal.Gen

variable (m : (ℓ : Loc nD τ sig) → Buf (Elt Ideal) ℓ)

/-- The four windows' block indices at point t, in terms of t / 8 and t % 8 (decided over the 64 points). -/
theorem idx_facts : ∀ t : Fin cfg0.N,
    win0_0.index t (0 : Fin 2) = t.val / 8 ∧ win0_0.index t (1 : Fin 2) = 0
    ∧ win0_1.index t (0 : Fin 2) = 0 ∧ win0_1.index t (1 : Fin 2) = t.val % 8
    ∧ win0_2.index t (0 : Fin 2) = 0 ∧ win0_2.index t (1 : Fin 2) = t.val % 8
    ∧ win0_3.index t (0 : Fin 2) = t.val / 8 ∧ win0_3.index t (1 : Fin 2) = t.val % 8 :=
  (by decide +kernel : ∀ t : Fin grid0.N, _)

/-- The three arguments as launched. -/
abbrev X (c : Dev nD) : S8192x4096.Idx → EReal := m ((c : Thread nD τ).loc main_arg0)
abbrev Wm (c : Dev nD) : S4096x4096.Idx → EReal := m ((c : Thread nD τ).loc main_arg1)
abbrev Bv (c : Dev nD) : S4096.Idx → EReal := m ((c : Thread nD τ).loc main_arg2)

/-- The cast of W the region finds is W. -/
theorem wcast_eq (c : Dev nD) : (V m c main_call0_v0 : S4096x4096.Idx → EReal) = Wm m c := by
  dsimp only [V, hostOps0]
  after_results
  rfl

/-- The row the region finds is b reshaped to [1, 4096]; -/
theorem brow_eq (c : Dev nD) :
    (V m c main_call0_v1 : S1x4096.Idx → EReal) = shapeCast S1x4096 (Bv m c) shapeCasts_S4096_S1x4096 := by
  dsimp only [V, hostOps0]
  after_results
  rfl

/-- its entry (0, q) is b q. -/
theorem brow_apply (c : Dev nD) (q : Fin 4096) :
    (V m c main_call0_v1 : S1x4096.Idx → EReal) (ix2 (0 : Fin 1) q) = Bv m c (ix1 q) := by
  rw [brow_eq]
  exact shapeCast_apply _ _ (ix2 (0 : Fin 1) q) (ix1 q) (by
    rw [Shape.rowMajor_val_one, Shape.rowMajor_val_two]
    show q.val = 0 * 4096 + q.val
    omega)

/-- The input windows' blocks at a point, at their literal shapes. -/
abbrev xblk (c : Dev nD) (t : Fin cfg0.N) : Vec Ideal S1024x4096 .f32 := iblk m c 0 t
abbrev wblk (c : Dev nD) (t : Fin cfg0.N) : Vec Ideal S4096x512 .bf16 := iblk m c 1 t
abbrev bblk (c : Dev nD) (t : Fin cfg0.N) : Vec Ideal S1x512 .f32 := iblk m c 2 t

/-- Entry (p, k) of the x block at t is x at row 1024·(t / 8) + p, column k. -/
theorem xblk_apply (c : Dev nD) (t : Fin cfg0.N) (p : Fin 1024) (k : Fin 4096) (i : S8192x4096.Idx)
    (h0 : (i 0).val = 1024 * (t.val / 8) + p.val) (h1 : (i 1).val = k.val) :
    xblk m c t (ix2 p k) = X m c i := by
  obtain ⟨e0, e1, -⟩ := idx_facts t
  show iblk m c 0 t (ix2 p k) = _
  unfold iblk
  rw [View.read_apply]
  show V m c main_arg0 _ = _
  refine (congrFun (V_main_arg0 m c) _).trans (congrArg _ (funext fun a => Fin.ext ?_))
  match a with
  | ⟨0, _⟩ => show win0_0.index t (0 : Fin 2) * 1024 + 1 * p.val = (i 0).val; rw [e0, h0]; omega
  | ⟨1, _⟩ => show win0_0.index t (1 : Fin 2) * 4096 + 1 * k.val = (i 1).val; rw [e1, h1]; omega

/-- Entry (k, q) of the W block at t is W at row k, column 512·(t % 8) + q. -/
theorem wblk_apply (c : Dev nD) (t : Fin cfg0.N) (k : Fin 4096) (q : Fin 512) (i : S4096x4096.Idx)
    (h0 : (i 0).val = k.val) (h1 : (i 1).val = 512 * (t.val % 8) + q.val) :
    wblk m c t (ix2 k q) = Wm m c i := by
  obtain ⟨-, -, e0, e1, -⟩ := idx_facts t
  show iblk m c 1 t (ix2 k q) = _
  unfold iblk
  rw [View.read_apply]
  show (V m c main_call0_v0 : S4096x4096.Idx → EReal) _ = _
  refine (congrFun (wcast_eq m c) _).trans (congrArg _ (funext fun a => Fin.ext ?_))
  match a with
  | ⟨0, _⟩ => show win0_1.index t (0 : Fin 2) * 4096 + 1 * k.val = (i 0).val; rw [e0, h0]; omega
  | ⟨1, _⟩ => show win0_1.index t (1 : Fin 2) * 512 + 1 * q.val = (i 1).val; rw [e1, h1]; omega

/-- Entry (0, q) of the bias block at t is b at 512·(t % 8) + q. -/
theorem bblk_apply (c : Dev nD) (t : Fin cfg0.N) (q : Fin 512) (j : Fin 4096)
    (h : j.val = 512 * (t.val % 8) + q.val) :
    bblk m c t (ix2 (0 : Fin 1) q) = Bv m c (ix1 j) := by
  obtain ⟨-, -, -, -, e0, e1, -⟩ := idx_facts t
  show iblk m c 2 t (ix2 (0 : Fin 1) q) = _
  unfold iblk
  rw [View.read_apply]
  show (V m c main_call0_v1 : S1x4096.Idx → EReal) _ = _
  refine Eq.trans (congrArg _ (funext fun a => Fin.ext ?_)) (brow_apply m c j)
  match a with
  | ⟨0, _⟩ => show win0_2.index t (0 : Fin 2) * 1 + 1 * 0 = 0; rw [e0]
  | ⟨1, _⟩ => show win0_2.index t (1 : Fin 2) * 512 + 1 * q.val = j.val; rw [e1, h]; omega

end Cert.KernelIdeal.Arrays

end
-- ==== Proof.Strip.lean ====
/-
  What the carried scratch and the output block hold after each grid point.

  The scratch is written only at the first point of a row strip (t % 8 = 0), with the strip of x the point's window
  shows; at the other seven points of the strip it keeps what the point before left. Since the x window depends on
  t only through t / 8, the scratch after ANY point t holds rows 1024·(t / 8) … of x — by induction on the point,
  the step inside a strip using (t - 1) / 8 = t / 8. Every point then stores the same function of (scratch, W block,
  bias block), so the output block after point t is, at (p, q),
      (∑ k, x (1024·(t / 8) + p, k) · W (k, 512·(t % 8) + q)) + b (512·(t % 8) + q).
-/
import proofs.«174121_g35433480192895_cont_8to1_b_1472_3_alg».proof.Proof.Gen.KernelIdeal.Frame
import proofs.«174121_g35433480192895_cont_8to1_b_1472_3_alg».proof.Proof.Pieces
import proofs.«174121_g35433480192895_cont_8to1_b_1472_3_alg».proof.Proof.Body
import proofs.«174121_g35433480192895_cont_8to1_b_1472_3_alg».proof.Proof.Arrays

noncomputable section

open scoped BigOperators
open Idealize.ShloMosaic Idealize.ShloMosaic.TcCoe Idealize.SL.Sem Idealize.ShloMosaic.ValueIdx

namespace Cert.KernelIdeal.Strip

open Cert.KernelIdeal Cert.KernelIdeal.Gen Cert.KernelIdeal.Arrays

variable (m : (ℓ : Loc nD τ sig) → Buf (Elt Ideal) ℓ)

/-- After point n the scratch's entry (p, k) is x at row 1024·(n / 8) + p, column k. -/
theorem scratch_apply (c : Dev nD) : ∀ (n : ℕ) (hn : n < cfg0.N) (p : Fin 1024) (k : Fin 4096) (i : S8192x4096.Idx),
    (i 0).val = 1024 * (n / 8) + p.val → (i 1).val = k.val →
    (outsAt0 m c n hn).2 (ix2 p k) = X m c i
  | 0, hn, p, k, i, h0, h1 => by
    rw [outsAt0_A m c ⟨0, hn⟩ rfl]
    dsimp only
    refine (congrFun (Pieces.scratch_first (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr rfl) (iblk m c 0 ⟨0, hn⟩) (iblk m c 1 ⟨0, hn⟩) (iblk m c 2 ⟨0, hn⟩)) (ix2 p k)).trans ?_
    refine (Body.cast_apply (iblk m c 0 ⟨0, hn⟩) (ix2 p k)).trans ?_
    exact xblk_apply m c ⟨0, hn⟩ p k i h0 h1
  | n + 1, hn, p, k, i, h0, h1 => by
    by_cases hc : (n + 1) % 8 = 0
    · rw [outsAt0_A m c ⟨n + 1, hn⟩ hc]
      dsimp only
      refine (congrFun (Pieces.scratch_first (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr hc) (iblk m c 0 ⟨n + 1, hn⟩) (iblk m c 1 ⟨n + 1, hn⟩) (iblk m c 2 ⟨n + 1, hn⟩)) (ix2 p k)).trans ?_
      refine (Body.cast_apply (iblk m c 0 ⟨n + 1, hn⟩) (ix2 p k)).trans ?_
      exact xblk_apply m c ⟨n + 1, hn⟩ p k i h0 h1
    · rw [outsAt0_B m c ⟨n + 1, hn⟩ hc]
      dsimp only
      unfold sout0_B_0
      exact scratch_apply c n (Nat.lt_of_succ_lt hn) p k i (by omega) h1

/-- After point t the output block's entry (p, q) is the layer's value at row 1024·(t / 8) + p and column
    512·(t % 8) + q. Here r and o are that row and that column. -/
theorem out_apply (c : Dev nD) (t : Fin cfg0.N) (p : Fin 1024) (q : Fin 512) (r : Fin 8192) (o : Fin 4096)
    (hr : r.val = 1024 * (t.val / 8) + p.val) (ho : o.val = 512 * (t.val % 8) + q.val) :
    (outsAt0 m c t.val t.isLt).1 (ix2 p q)
      = (∑ k : Fin 4096, X m c (ix2 r k) * Wm m c (ix2 k o)) + Bv m c (ix1 o) := by
  have hN : cfg0.N = 64 := N_0
  have hsum : ∀ (xs : Vec Ideal S1024x4096 .bf16),
      (∀ k : Fin 4096, xs (ix2 p k) = X m c (ix2 r k)) →
      k0_pay2 (F := Ideal) xs (wblk m c t) (bblk m c t) (ix2 p q)
        = (∑ k : Fin 4096, X m c (ix2 r k) * Wm m c (ix2 k o)) + Bv m c (ix1 o) := by
    intro xs hxs
    refine (Body.out_apply xs (wblk m c t) (bblk m c t) p q).trans ?_
    congr 1
    · refine Finset.sum_congr rfl fun k _ => ?_
      rw [hxs k]
      exact congrArg _ (wblk_apply m c t k q (ix2 k o) rfl ho)
    · exact bblk_apply m c t q o ho
  by_cases hc : t.val % 8 = 0
  · rw [outsAt0_A m c t hc]
    dsimp only
    refine (congrFun (Pieces.out_first (F := Ideal) c (grid0.coords t) (ms0_0 t) (hs0_0 t) (ms0_1 t) (hs0_1 t) (ms0_2 t) (hs0_2 t) (ms0_3 t) (hs0_3 t) scM0_0 (Memref.isWhole_whole _) ((hcond0_0 t).mpr hc) (iblk m c 0 t) (iblk m c 1 t) (iblk m c 2 t)) (ix2 p q)).trans ?_
    exact hsum (k0_pay1 (iblk m c 0 t)) (fun k =>
      (Body.cast_apply (iblk m c 0 t) (ix2 p k)).trans (xblk_apply m c t p k (ix2 r k) hr rfl))
  · rw [outsAt0_B m c t hc]
    dsimp only
    refine (congrFun (Pieces.out_later (F := Ideal) c (grid0.coords t) (ms0_0 t) (hs0_0 t) (ms0_1 t) (hs0_1 t) (ms0_2 t) (hs0_2 t) (ms0_3 t) (hs0_3 t) scM0_0 (Memref.isWhole_whole _) (fun h => hc ((hcond0_0 t).mp h)) (iblk m c 0 t) (iblk m c 1 t) (iblk m c 2 t) (outsAt0 m c (t.val - 1) (Nat.lt_of_le_of_lt (Nat.sub_le _ _) t.isLt)).2) (ix2 p q)).trans ?_
    exact hsum _ (fun k => scratch_apply m c (t.val - 1) _ p k (ix2 r k) (by
      have := t.isLt
      show r.val = 1024 * ((t.val - 1) / 8) + p.val
      omega) rfl)

end Cert.KernelIdeal.Strip

end
-- ==== Proof.Result.lean ====
/-
  The result array after the run is the dense layer of the launched arguments.

  Point t writes back the [1024, 512] block at block-row t / 8 and block-column t % 8, and what it writes is the
  layer restricted to that block. The 64 blocks tile the [8192, 4096] result: entry (r, o) lies in the block of
  point 8·(r / 1024) + o / 512. So the whole array is the layer, and the run can be re-posted with that value.
-/
import proofs.«174121_g35433480192895_cont_8to1_b_1472_3_alg».proof.Proof.Gen.KernelIdeal.Value
import proofs.«174121_g35433480192895_cont_8to1_b_1472_3_alg».proof.Proof.Strip
import proofs.«174121_g35433480192895_cont_8to1_b_1472_3_alg».proof.Proof.Spec

noncomputable section

open scoped BigOperators
open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.KernelIdeal.Arrays

variable (m : (ℓ : Loc nD τ sig) → Buf (Elt Ideal) ℓ) (ρ : Dev nD → PrngReg)

/-- The layer of the arguments as launched on core c. -/
abbrev layer (c : Dev nD) : S8192x4096.Idx → EReal := Cert.Linear.linear (X m c) (Wm m c) (Bv m c)

/-- What point t writes back is block t of the layer. -/
theorem flushed_eq (c : Dev nD) (t : Fin cfg0.N) :
    (dats m 0 c).flushed 3 t = ((cfg0.win 3).blk t).view.read (Elt Ideal) (layer m c) := by
  obtain ⟨-, -, -, -, -, -, e0, e1⟩ := Arrays.idx_facts t
  rw [Value.flushed3]
  refine funext fun (j : S1024x512.Idx) => ?_
  obtain ⟨p, q, rfl⟩ : ∃ (p : Fin 1024) (q : Fin 512), j = ix2 p q := ⟨j 0, j 1, eq_ix2 j⟩
  have hp := p.isLt
  have hq := q.isLt
  have ht : t.val < 64 := lt_of_lt_of_eq t.isLt N_0
  show (outsAt0 m c t.val t.isLt).1 (ix2 p q) = _
  rw [View.read_apply]
  have he : ((cfg0.win 3).blk t).view.emb (ix2 p q)
      = ix2 (⟨1024 * (t.val / 8) + p.val, by omega⟩ : Fin 8192) (⟨512 * (t.val % 8) + q.val, by omega⟩ : Fin 4096) :=
    funext fun a => Fin.ext (by
      match a with
      | ⟨0, _⟩ => show win0_3.index t (0 : Fin 2) * 1024 + 1 * p.val = 1024 * (t.val / 8) + p.val; rw [e0]; omega
      | ⟨1, _⟩ => show win0_3.index t (1 : Fin 2) * 512 + 1 * q.val = 512 * (t.val % 8) + q.val; rw [e1]; omega)
  rw [he]
  exact (Strip.out_apply m c t p q _ _ rfl rfl).trans (Cert.Linear.linear_apply _ _ _ _ _).symm

/-- An index of the result lies in point t's block iff each coordinate is in the block's range on its axis. -/
theorem mem_blk (t : Fin cfg0.N) (i : S8192x4096.Idx) :
    i ∈ ((cfg0.win 3).blk t).view.set ↔ ∀ a : Fin 2, win0_3.index t a * S1024x512.size a ≤ (i a).val ∧ (i a).val < win0_3.index t a * S1024x512.size a + S1024x512.size a := by
  show i ∈ ((View.whole main_v0).slice (win0_3.rect t)).set ↔ _
  rw [View.set_slice_whole, Rect.mem_set_unit]
  exact Iff.rfl

/-- Every entry of the result is in some point's block: (r, o) in that of point 8·(r / 1024) + o / 512. -/
theorem cover (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  have hN : cfg0.N = 64 := N_0
  let t : Fin cfg0.N := ⟨8 * ((i 0).val / 1024) + (i 1).val / 512, by omega⟩
  have htv : t.val = 8 * ((i 0).val / 1024) + (i 1).val / 512 := rfl
  obtain ⟨-, -, -, -, -, -, e0, e1⟩ := Arrays.idx_facts t
  refine ⟨t, flush0_3 t, ?_⟩
  rw [mem_blk]
  intro a
  match a with
  | ⟨0, _⟩ => show win0_3.index t (0 : Fin 2) * 1024 ≤ (i 0).val ∧ (i 0).val < win0_3.index t (0 : Fin 2) * 1024 + 1024; rw [e0, htv]; omega
  | ⟨1, _⟩ => show win0_3.index t (1 : Fin 2) * 512 ≤ (i 1).val ∧ (i 1).val < win0_3.index t (1 : Fin 2) * 512 + 512; rw [e1, htv]; omega

/-- The result array after the last point is the layer. -/
theorem final (c : Dev nD) : (dats m 0 c).arrAt 3 cfg0.N = layer m c :=
  (dats m 0 c).arrAt_eq_of_cover 3 (layer m c) (fun t _ => flushed_eq m c t) cover

/-- The kernel's run, re-posted: the result at the layer of the launched arguments, the arguments unchanged. -/
theorem run : θ_run defs (onTc (τ := τ) (main (F := Ideal))) ⟨m, fun _ => 0, ρ⟩ fun r => ∀ c : Dev nD,
      r.2.mem ((c : Thread nD τ).loc main_v0) = layer m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Result

end
-- ==== Proof.lean ====
/-
  A dense linear layer, out = x · W + b with x : [8192, 4096], W : [4096, 4096], b : [4096], computed by a blocked
  kernel and by its plain reference: the two agree on the extended reals.

  The kernel walks an 8 × 8 grid of [1024, 512] result blocks. At the first block of each row strip it casts the
  strip's 1024 rows of x to bf16 into a scratch buffer that the remaining seven blocks of the strip reuse; every
  block is the product of the scratch with a [4096, 512] column block of the (cast) W, accumulated into zero, plus
  the matching 512 entries of b broadcast down the rows. On the extended reals a change of float format is the
  identity and a product accumulated into zero is the plain 4096-term sum, so each block holds
      (∑ k, x (r, k) · W (k, o)) + b o
  at its entries (r, o); the blocks tile the result. The reference is one whole product contracting the same axis,
  plus b broadcast to every row: the same function. No algebraic law beyond re-indexing one sum and 0 + s = s is
  used, so the finiteness of the inputs is never needed.

  The kernel's two frames are the generated ones (the body run once per control case, the scratch's contents stated
  after each point); the reference's frame is its generated run with the result dropped; the idealization rewrote no
  operation, so the idealized kernel is the kernel's own text read on the extended reals.
-/
import proofs.«174121_g35433480192895_cont_8to1_b_1472_3_alg».proof.Defs
import proofs.«174121_g35433480192895_cont_8to1_b_1472_3_alg».proof.Proof.Gen.Kernel
import proofs.«174121_g35433480192895_cont_8to1_b_1472_3_alg».proof.Proof.Gen.Kernel.Skeleton
import proofs.«174121_g35433480192895_cont_8to1_b_1472_3_alg».proof.Proof.Gen.Kernel.Launch
import proofs.«174121_g35433480192895_cont_8to1_b_1472_3_alg».proof.Proof.Gen.Kernel.Points
import proofs.«174121_g35433480192895_cont_8to1_b_1472_3_alg».proof.Proof.Gen.Kernel.Frame
import proofs.«174121_g35433480192895_cont_8to1_b_1472_3_alg».proof.Proof.Gen.KernelIdeal
import proofs.«174121_g35433480192895_cont_8to1_b_1472_3_alg».proof.Proof.Gen.KernelIdeal.Skeleton
import proofs.«174121_g35433480192895_cont_8to1_b_1472_3_alg».proof.Proof.Gen.KernelIdeal.Launch
import proofs.«174121_g35433480192895_cont_8to1_b_1472_3_alg».proof.Proof.Gen.KernelIdeal.Points
import proofs.«174121_g35433480192895_cont_8to1_b_1472_3_alg».proof.Proof.Gen.KernelIdeal.Frame
import proofs.«174121_g35433480192895_cont_8to1_b_1472_3_alg».proof.Proof.Gen.ReferenceIdeal
import proofs.«174121_g35433480192895_cont_8to1_b_1472_3_alg».proof.Proof.Gen.Pre_finite_inputs
import proofs.«174121_g35433480192895_cont_8to1_b_1472_3_alg».proof.Proof.Gen.KernelIdeal.Value
import proofs.«174121_g35433480192895_cont_8to1_b_1472_3_alg».proof.Proof.Gen.ReferenceIdeal.Run
import proofs.«174121_g35433480192895_cont_8to1_b_1472_3_alg».proof.Proof.Gen.ReferenceIdeal.Read
import proofs.«174121_g35433480192895_cont_8to1_b_1472_3_alg».proof.Proof.RefLinear
import proofs.«174121_g35433480192895_cont_8to1_b_1472_3_alg».proof.Proof.Result
import Idealize.ShloMosaic.Adequacy
import Idealize.ShloMosaic.Init

noncomputable section

namespace Cert.Proof

open Idealize.ShloMosaic Idealize.ShloMosaic.TcCoe Idealize.SL.Sem

/-- The kernel as printed runs, faults nowhere, and leaves its arguments as launched. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is four host operations: its run, with the result's value dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation: nothing to preserve. -/
theorem preserves : Cert.preserves_Kernel_KernelIdeal := trivial

/-- Both programs end with the layer (∑ k, x (r, k) · W (k, o)) + b o of the launched arguments in their result: the
    kernel block by block, the reference in one product and one sum; the arguments agree, so the results do. -/
theorem algebraic : Cert.algebraic_KernelIdeal_ReferenceIdeal := by
  intro m ρ m' ρ' _ hagree
  refine ⟨fun c => Cert.KernelIdeal.Result.layer m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.RefValue.ref_eq_linear,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
